-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S12288x64 : S_.BroadcastsInDim S12288x64 (![] : Fin 0 → Fin S12288x64.rank)
  reducesTo_S12288x64_S_d0_1 : S12288x64.ReducesTo [0, 1] S_

variable [Facts]

def fn_part1 {F : FTy → Type} [FloatOps F] (main_v13 : IVec S_ 1) (main_v16 : IVec S12288x64 1) : IVec S_ 1 :=
  let main_c_5 : IVec S_ 1 := constantI S_ 1 1#1
  let main_v17 : IVec S_ 1 := (fun x v => Host.reduce IntOp.andi x v reducesTo_S12288x64_S_d0_1 h_S_) main_v16 main_c_5
  let main_v18 : IVec S_ 1 := andi main_v13 main_v17
  main_v18

def fn {F : FTy → Type} [FloatOps F] (main_arg0 : FVec F S4x4096x2048 .f32) (main_arg1 : FVec F S64x2048 .f32) (main_arg2 : FVec F S64 .f32) (main_arg3 : FVec F S12288x64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S12288x64 .f32 := Host.absf main_arg3
  let main_cst_4 : FVec F S_ .f32 := constant S_ .f32 0x7F800000#32
  let main_v15 : FVec F S12288x64 .f32 := broadcastInDim S12288x64 ![] bcast_S_S12288x64 main_cst_4
  let main_v16 : IVec S12288x64 1 := cmpf .olt main_v14 main_v15
  fn_part1 (F := F) main_v13 main_v16
-- ==== Kernel.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S16384x2048 : Shape := ⟨2, ![16384, 2048]⟩
abbrev S4096x64 : Shape := ⟨2, ![4096, 64]⟩
abbrev S1x64 : Shape := ⟨2, ![1, 64]⟩
abbrev S16384x4096 : Shape := ⟨2, ![16384, 4096]⟩
abbrev S4x4096x4096 : Shape := ⟨3, ![4, 4096, 4096]⟩
abbrev S4096 : Shape := ⟨1, ![4096]⟩
abbrev S4096x1 : Shape := ⟨2, ![4096, 1]⟩
abbrev S1024x2048 : Shape := ⟨2, ![1024, 2048]⟩
abbrev S1024x4096 : Shape := ⟨2, ![1024, 4096]⟩
abbrev S1024x64 : Shape := ⟨2, ![1024, 64]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S12288x64, .f32⟩
  | .hbm, ⟨4, _⟩ => ⟨S16384x2048, .f32⟩
  | .hbm, ⟨5, _⟩ => ⟨S4096x64, .f32⟩
  | .hbm, ⟨6, _⟩ => ⟨S1x64, .f32⟩
  | .hbm, ⟨7, _⟩ => ⟨S4096x64, .bf16⟩
  | .hbm, ⟨8, _⟩ => ⟨S16384x4096, .f32⟩
  | .hbm, ⟨9, _⟩ => ⟨S4x4096x4096, .f32⟩
  | .local _ .vmem, ⟨0, _⟩ => ⟨S4096x64, .f32⟩
  | .local _ .vmem, ⟨1, _⟩ => ⟨S4096x64, .bf16⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1x64, .f32⟩
  | .local _ .vmem, ⟨6, _⟩ => ⟨S4096x64, .bf16⟩
  | .local _ .vmem, ⟨7, _⟩ => ⟨S1024x4096, .f32⟩
  | .local _ .vmem, ⟨8, _⟩ => ⟨S1024x4096, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x4096x2048_S16384x2048 : S4x4096x2048.ShapeCasts S16384x2048
  slices_S12288x64_S4096x64_0_0 : S12288x64.Slices ![0, 0] S4096x64
  shapeCasts_S64_S1x64 : S64.ShapeCasts S1x64
  shapeCasts_S16384x4096_S4x4096x4096 : S16384x4096.ShapeCasts S4x4096x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  packedbf16_S4096x64_S4096x64_0_0 : (Rect.unit (s := S4096x64) ![0, 0] S4096x64.size inb_S4096x64_S4096x64_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x4096_S1024x4096_0_0 : ∀ a, (![0, 0] : Fin 2 → Nat) a + S1024x4096.size a ≤ S1024x4096.size a
  h_S1024x4096 : 0 < S1024x4096.numel
  dot_S1024x2048_S64x2048_S1024x64_1_1_0_0_n_n_wf : DotDims.WF S1024x2048 S64x2048 S1024x64 [1] [1] [0] [0] [] []
  dot_S1024x64_S4096x64_S1024x4096_1_1_0_0_n_n_wf : DotDims.WF S1024x64 S4096x64 S1024x4096 [1] [1] [0] [0] [] []
  hstage0_0 : ∀ j, (stage0_0 j).IsWhole
  hstage0_1 : ∀ j, (stage0_1 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S64x2048.size a
  hwx1_1 : ∀ i : grid1.Coords, EltTy.bits .f32 = 32 ∨ (Rect.block (s := S64x2048) S64x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S4096x64.size a
  hwx1_3 : ∀ i : grid1.Coords, EltTy.bits .bf16 = 32 ∨ (Rect.block (s := S4096x64) S4096x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S16384x4096.size a
  hwx1_4 : ∀ i : grid1.Coords, EltTy.bits .f32 = 32 ∨ (Rect.block (s := S16384x4096) S1024x4096.size (cc1_transform_4 i) (hinb1_4 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.whole (Memref.whole main_call0_v1) false false (stage0_0 0) (sem0_0 0) (Memref.isWhole_whole _) (hstage0_0 0)

abbrev win0_1 : Pipeline.Window sig grid0 :=
  Pipeline.Window.whole (Memref.whole main_call0_v3) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S1024x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S4x4096x64 : Shape := ⟨3, ![4, 4096, 64]⟩
abbrev S1x1x64 : Shape := ⟨3, ![1, 1, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4x4096x4096 : Shape := ⟨3, ![4, 4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S12288x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x64, .f32⟩
  | .hbm, ⟨18, _⟩ => ⟨S4096x64, .f32⟩
  | .hbm, ⟨19, _⟩ => ⟨S4x4096x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  slices_S12288x64_S4096x64_0_0 : S12288x64.Slices ![0, 0] S4096x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  dot_S4x4096x2048_S64x2048_S4x4096x64_2_1_01_0_n_n_wf : DotDims.WF S4x4096x2048 S64x2048 S4x4096x64 [2] [1] [0, 1] [0] [] []
  dot_S4x4096x64_S4096x64_S4x4096x4096_2_1_01_0_n_n_wf : DotDims.WF S4x4096x64 S4096x64 S4x4096x4096 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.RouterSpec.lean ====
/-
  The router's logits as ONE function of the four argument arrays, read over the extended reals.

  For a token (b, s) and a feature row n,

      logit b s n = Σ_{d<64} ( Σ_{k<2048} x[b,s,k] · W[d,k] + bias[d] ) · ( E[n,d] / max(√(Σ_{j<64} E[n,j]²), c) )

  where E is the first 4096 rows of the embedding table and c is the value of the single-precision word 0x2B8CBCCC
  (the float nearest 1e-12). The same constant stands on both sides of the comparison, so its value is never needed: it
  stays a literal.
  The inner sum is the projection into the 64-dimensional routing space, the right factor a row of the table scaled
  to unit length (with the norm clamped from below by c), and the outer sum their inner product.
-/
import Idealize.ShloMosaic.PureOps.Ideal
import Idealize.ShloMosaic.Lib.ValueIdx

noncomputable section

namespace Cert.RouterSpec

open Idealize.ShloMosaic Idealize.ShloMosaic.ValueIdx

/-- The clamp under a row's norm: one constant, kept as its word. -/
def normFloor : EReal := Ideal.ofBits .f32 0x2B8CBCCC#32

/-- The squared length of row `n` of a 4096 × 64 table. -/
def rowSq (E : (⟨2, ![4096, 64]⟩ : Shape).Idx → EReal) (n : Fin 4096) : EReal :=
  ∑ j : Fin 64, E (ix2 n j) * E (ix2 n j)

/-- Entry `d` of row `n` scaled to unit length, the length clamped from below. -/
def unitEntry (E : (⟨2, ![4096, 64]⟩ : Shape).Idx → EReal) (n : Fin 4096) (d : Fin 64) : EReal :=
  Ideal.div (E (ix2 n d)) (max (Ideal.sqrt (rowSq E n)) normFloor)

/-- Coordinate `d` of token `(b, s)` projected into the routing space: a row of `x` against a row of `W`, plus the bias. -/
def projEntry (X : (⟨3, ![4, 4096, 2048]⟩ : Shape).Idx → EReal) (W : (⟨2, ![64, 2048]⟩ : Shape).Idx → EReal)
    (B : (⟨1, ![64]⟩ : Shape).Idx → EReal) (b : Fin 4) (s : Fin 4096) (d : Fin 64) : EReal :=
  (∑ k : Fin 2048, X (ix3 b s k) * W (ix2 d k)) + B (ix1 d)

/-- The first 4096 rows of the 12288-row table. -/
def topRows (T : (⟨2, ![12288, 64]⟩ : Shape).Idx → EReal) : (⟨2, ![4096, 64]⟩ : Shape).Idx → EReal :=
  fun j => T (ix2 (⟨(j 0).val, by have h : (j 0).val < 4096 := (j 0).isLt; omega⟩ : Fin 12288) (⟨(j 1).val, (j 1).isLt⟩ : Fin 64))

/-- One logit: the projected token against the unit row. -/
def logit (X : (⟨3, ![4, 4096, 2048]⟩ : Shape).Idx → EReal) (W : (⟨2, ![64, 2048]⟩ : Shape).Idx → EReal)
    (B : (⟨1, ![64]⟩ : Shape).Idx → EReal) (E : (⟨2, ![4096, 64]⟩ : Shape).Idx → EReal)
    (b : Fin 4) (s : Fin 4096) (n : Fin 4096) : EReal :=
  ∑ d : Fin 64, projEntry X W B b s d * unitEntry E n d

/-- The whole result array. -/
def logits (X : (⟨3, ![4, 4096, 2048]⟩ : Shape).Idx → EReal) (W : (⟨2, ![64, 2048]⟩ : Shape).Idx → EReal)
    (B : (⟨1, ![64]⟩ : Shape).Idx → EReal) (T : (⟨2, ![12288, 64]⟩ : Shape).Idx → EReal) :
    (⟨3, ![4, 4096, 4096]⟩ : Shape).Idx → EReal :=
  fun i => logit X W B (topRows T) (⟨(i 0).val, (i 0).isLt⟩ : Fin 4) (⟨(i 1).val, (i 1).isLt⟩ : Fin 4096) (⟨(i 2).val, (i 2).isLt⟩ : Fin 4096)

end Cert.RouterSpec

end
-- ==== Proof.NormalizeEntry.lean ====
/-
  One entry of the row-normalising kernel's stored block, over the extended reals.

  The kernel takes a 4096 × 64 block E and stores, at row n and lane d,

      E[n,d] / max( √( Σ_{j<64} E[n,j]² ), c ),

  where c is the value of the single-precision word 0x2B8CBCCC. It gets there in small steps: square the block
  entry by entry, add the 64 lanes of every row (a vector of 4096 row sums), stand that vector up as a 4096 × 1
  column, take square roots, clamp the column from below by c, spread the column back over the 64 lanes, divide the
  block by it entry by entry, and narrow the format (which changes nothing over the extended reals). The first
  step, a cast of the block to its own shape, is the identity.

  Read at (n, d), every entrywise step acts on the one entry; the spread column reads its row n; the column reads
  the vector at n; and the lane sum at n is the sum over j < 64 of the squared block at (n, j). What is left is,
  term for term, the specification's `unitEntry E n d`.

  The three layout facts used — a vector as a column, a column spread over lanes, a lane sum as a finite sum over
  the lane coordinate — are stated first, each at explicit coordinates.
-/
import proofs.«128802_g64476049048132_cont_9to1c4b_522_7_alg».proof.Proof.RouterSpec
import proofs.«128802_g64476049048132_cont_9to1c4b_522_7_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormalizeEntry

open Idealize.ShloMosaic Idealize.ShloMosaic.ValueIdx Cert.KernelIdeal Cert.KernelIdeal.Gen

/-- A vector of length `a` viewed as a column `[a, 1]` reads, at `(i, u)`, the vector at `i`: in row-major order
    the position of `(i, u)` is `i · 1 + u`, and the unit coordinate `u` is `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry of row `p`: the row coordinate
    is kept (when `a = 1` it is `0` either way) and the lane coordinate falls on the column's unit axis. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `4096 × 64` block, read at row `n`, is the sum over the 64 lanes of that row: the source
    index over `n` with lane coordinate `k` inserted is `(n, k)`. The accumulator word is zero, the neutral element
    of addition, and the hypothesis says so in the form the lane sum's statement carries it. -/
theorem lane_sum_apply (w : FVec Ideal S4096x64 .f32) (h : S4096x64.Reduces [1] S4096) (hφ : FKind.Formats .f32)
    (hacc : (0x00000000#32 : BitVec 32) = 0x00000000#32) (n : Fin 4096) :
    multiReduction (F := Ideal) .add [1] S4096 w 0x00000000#32 h hφ hacc (ix1 n) = ∑ k : Fin 64, w (ix2 n k) := by
  refine (Ideal.multiReduction_add_single w _ h hφ hacc (ix1 n)).trans ?_
  show ∑ k : Fin 64, w (h.lift (ix1 n) k) = ∑ k : Fin 64, w (ix2 n k)
  refine Finset.sum_congr rfl fun k _ => congrArg w (funext fun c => Fin.ext ?_)
  match c with
  | ⟨0, _⟩ => rfl
  | ⟨1, _⟩ => rfl

/-- The kernel's stored block at `(n, d)` is the entry `E[n,d]` divided by the clamped length of row `n`. -/
theorem unit_row_entry (v0 : Vec Ideal S4096x64 .f32) (n : Fin 4096) (d : Fin 64) :
    k0_pay1 (F := Ideal) v0 (ix2 n d) = Cert.RouterSpec.unitEntry v0 n d := by
  unfold k0_pay1
  -- the cast of the block to its own shape is the identity
  simp only [shapeCast_self]
  -- the entrywise steps act on the one entry; the spread column reads its row `n`
  rw [truncf_apply, divf_apply, broadcastTo_a1_ab_apply, maximumf_apply, broadcast_apply]
  show Ideal.div (v0 (ix2 n d))
      (max (Ideal.sqrt (shapeCast S4096x1 _ _ (ix2 n (0 : Fin 1)))) (Ideal.ofBits .f32 0x2B8CBCCC#32)) = _
  -- the column reads the vector of row sums at `n`, and that row sum is the sum over the lanes
  rw [shapeCast_a_a1_apply, lane_sum_apply]
  -- under the sum stands the squared entry, `E[n,k] · E[n,k]`: this is the specification's expression
  rfl

end Cert.KernelIdeal.NormalizeEntry

end
-- ==== Proof.RegionNormalize.lean ====
/-
  What the first kernel region leaves in its output array: the table's rows scaled to unit length.

  The region has no grid: one point, whose blocks are the whole arrays. It reads the 4096 × 64 table, and writes, at (n, d),
  the entry E[n, d] divided by the clamped length of row n. So the array ends holding that one function of the table.
-/
import proofs.«128802_g64476049048132_cont_9to1c4b_522_7_alg».proof.Proof.Gen.KernelIdeal.Frame
import proofs.«128802_g64476049048132_cont_9to1c4b_522_7_alg».proof.Proof.NormalizeEntry
import Idealize.ShloMosaic.Lib.Pipeline.Value
import Idealize.ShloMosaic.Lib.ValueIdx

set_option maxRecDepth 16384

noncomputable section

namespace Cert.KernelIdeal.RegionNormalize

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The table with every row scaled to unit length. -/
def unitRows (E : S4096x64.Idx → EReal) : S4096x64.Idx → EReal :=
  fun j => Cert.RouterSpec.unitEntry E (⟨(j 0).val, (j 0).isLt⟩ : Fin 4096) (⟨(j 1).val, (j 1).isLt⟩ : Fin 64)

variable (V : (c : Dev nD) → (b : Ref sig .tc) → Buf (Elt Ideal) ((c : Thread nD τ).loc b))

theorem origin : (![0, 0] : Fin 2 → Nat) = fun _ => 0 := funext fun a => by fin_cases a <;> rfl

/-- Both windows sit at block (0, 0): the block is the array. -/
theorem block_indices : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the one point writes back is the whole of `unitRows` of the table as the region finds it. -/
theorem flushed_eq (c : Dev nD) (t : Fin cfg0.N) :
    (dat0 V c).flushed 1 t = ((cfg0.win 1).blk t).view.read (Elt Ideal) (unitRows (V c main_call0_v1)) := by
  show (cfg0.win 1).cut (grid0.coords t) ((dat0 V c).after 1 t) = _
  rw [after0_1]
  unfold out0_1
  rw [View.canon_unit_zero origin]
  simp only [View.ld_unit_zero (S := S4096x64) origin]
  funext j
  obtain ⟨n, d, rfl⟩ : ∃ (n : Fin 4096) (d : Fin 64), j = ix2 n d := ⟨j 0, j 1, eq_ix2 j⟩
  show k0_pay1 (F := Ideal) (iblk0 V c 0 t) (ix2 n d) = unitRows (V c main_call0_v1) (((cfg0.win 1).blk t).view.emb (ix2 n d))
  refine (NormalizeEntry.unit_row_entry (iblk0 V c 0 t) n d).trans ?_
  obtain ⟨e00, e01, e10, e11⟩ := block_indices t
  -- the input block is the table itself
  have hblk : (iblk0 V c 0 t : S4096x64.Idx → EReal) = V c main_call0_v1 := by
    funext y
    show V c main_call0_v1 (((cfg0.win 0).blk t).view.emb y) = V c main_call0_v1 y
    refine congrArg (V c main_call0_v1) (funext fun a => Fin.ext ?_)
    match a with
    | ⟨0, _⟩ => show win0_0.index t (0 : Fin 2) * 4096 + 1 * (y 0).val = (y 0).val; omega
    | ⟨1, _⟩ => show win0_0.index t (1 : Fin 2) * 64 + 1 * (y 1).val = (y 1).val; omega
  refine (congrArg (fun E => Cert.RouterSpec.unitEntry E n d) hblk).trans ?_
  -- and the output block's entry (n, d) is the array's entry (n, d)
  show Cert.RouterSpec.unitEntry (V c main_call0_v1) n d = Cert.RouterSpec.unitEntry (V c main_call0_v1) _ _
  refine congrArg₂ (Cert.RouterSpec.unitEntry (V c main_call0_v1)) (Fin.ext ?_) (Fin.ext ?_)
  · show n.val = win0_1.index t (0 : Fin 2) * 4096 + 1 * n.val; omega
  · show d.val = win0_1.index t (1 : Fin 2) * 64 + 1 * d.val; omega

/-- The one point's block is the whole array. -/
theorem covered (i : S4096x64.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  obtain ⟨-, -, e10, e11⟩ := block_indices t0_0
  refine ⟨t0_0, flush0_1 t0_0, ?_⟩
  show i ∈ ((View.whole main_call0_v3).slice (win0_1.rect t0_0)).set
  rw [View.set_slice_whole, Rect.mem_set_unit]
  intro a
  match a with
  | ⟨0, _⟩ => show win0_1.index t0_0 (0 : Fin 2) * 4096 ≤ (i 0).val ∧ (i 0).val < win0_1.index t0_0 (0 : Fin 2) * 4096 + 4096; omega
  | ⟨1, _⟩ => show win0_1.index t0_0 (1 : Fin 2) * 64 ≤ (i 1).val ∧ (i 1).val < win0_1.index t0_0 (1 : Fin 2) * 64 + 64; omega

/-- The output array after the region: `unitRows` of the table as the region finds it. -/
theorem region_value (c : Dev nD) : (dat0 V c).arrAt 1 cfg0.N = unitRows (V c main_call0_v1) :=
  (dat0 V c).arrAt_eq_of_cover 1 _ (fun t _ => flushed_eq V c t) covered

end Cert.KernelIdeal.RegionNormalize

end
-- ==== Proof.RouterEntry.lean ====
/-
  The router's logit at one entry.

  The value stored is two contractions in a row. The activations X (1024 × 2048) are contracted with
  the projection weights W (64 × 2048) along their common axis of length 2048, and the bias row
  B (1 × 64) is added to every row of the result:
      P(p, d) = (∑ k, X(p, k) · W(d, k)) + B(0, d).
  Then P (1024 × 64) is contracted with the table E (4096 × 64) along the common axis of length 64:
      L(p, n) = ∑ d, P(p, d) · E(n, d).
  Read over the extended reals, a change of number format is the identity, a reshape to the same
  shape is the identity, a one-row matrix broadcast down the rows reads its row 0, and a product
  accumulated into the zero matrix is the bare sum. So the entry (p, n) is exactly that double sum.

  Each contraction is first written as a sum over the contraction shape's indices; that shape has one
  axis, so the sum is re-indexed over Fin K, and the operand indices are computed axis by axis: on
  the left, axis 0 is the output's row and axis 1 the contraction position; on the right, axis 0 is
  the output's column and axis 1 the contraction position.
-/
import proofs.«128802_g64476049048132_cont_9to1c4b_522_7_alg».proof.Proof.RouterSpec
import proofs.«128802_g64476049048132_cont_9to1c4b_522_7_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RouterEntry

open Idealize.ShloMosaic Idealize.ShloMosaic.ValueIdx Cert.KernelIdeal Cert.KernelIdeal.Gen

/-! ## The first contraction's operand indices, axis by axis -/

theorem lhs_proj_0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
theorem lhs_proj_1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem rhs_proj_0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
theorem rhs_proj_1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-! ## The second contraction's operand indices, axis by axis -/

theorem lhs_logit_0 (i : S1024x4096.Idx) (q : dot_S1024x64_S4096x64_S1024x4096_1_1_0_0_n_n.contr.Idx) :
    (dot_S1024x64_S4096x64_S1024x4096_1_1_0_0_n_n.lhsIdx i q 0).val = (i 0).val := by
  unfold DotDims.lhsIdx
  rw [dif_neg (show ¬(0 : Fin S1024x64.rank) ∈ dot_S1024x64_S4096x64_S1024x4096_1_1_0_0_n_n.lhsBatch by decide), dif_pos (show (0 : Fin S1024x64.rank) ∈ dot_S1024x64_S4096x64_S1024x4096_1_1_0_0_n_n.lhsNonContracting by decide)]
  rfl
theorem lhs_logit_1 (i : S1024x4096.Idx) (q : dot_S1024x64_S4096x64_S1024x4096_1_1_0_0_n_n.contr.Idx) :
    (dot_S1024x64_S4096x64_S1024x4096_1_1_0_0_n_n.lhsIdx i q 1).val = (q ⟨0, by decide⟩).val :=
  dot_S1024x64_S4096x64_S1024x4096_1_1_0_0_n_n.lhsIdx_val_of_single rfl i q
theorem rhs_logit_0 (i : S1024x4096.Idx) (q : dot_S1024x64_S4096x64_S1024x4096_1_1_0_0_n_n.contr.Idx) :
    (dot_S1024x64_S4096x64_S1024x4096_1_1_0_0_n_n.rhsIdx i q 0).val = (i 1).val := by
  unfold DotDims.rhsIdx
  rw [dif_neg (show ¬(0 : Fin S4096x64.rank) ∈ dot_S1024x64_S4096x64_S1024x4096_1_1_0_0_n_n.rhsBatch by decide), dif_pos (show (0 : Fin S4096x64.rank) ∈ dot_S1024x64_S4096x64_S1024x4096_1_1_0_0_n_n.rhsNonContracting by decide)]
  rfl
theorem rhs_logit_1 (i : S1024x4096.Idx) (q : dot_S1024x64_S4096x64_S1024x4096_1_1_0_0_n_n.contr.Idx) :
    (dot_S1024x64_S4096x64_S1024x4096_1_1_0_0_n_n.rhsIdx i q 1).val = (q ⟨0, by decide⟩).val :=
  dot_S1024x64_S4096x64_S1024x4096_1_1_0_0_n_n.rhsIdx_val_of_single rfl i q

/-! ## Each contraction at an entry -/

/-- The first contraction into the zero matrix, at the entry (r, c): row r of the left operand against row c of the right, summed over the 2048 positions. -/
theorem proj_apply (a : FVec Ideal S1024x2048 .bf16) (b : FVec Ideal S64x2048 .bf16) (r : Fin 1024) (c : Fin 64) :
    matmul dot_S1024x2048_S64x2048_S1024x64_1_1_0_0_n_n none a b (constant S1024x64 .f32 0x00000000#32) (ix2 r c)
      = ∑ k : Fin 2048, a (ix2 r k) * b (ix2 c k) := by
  refine (Ideal.matmul_constant_zero_apply dot_S1024x2048_S64x2048_S1024x64_1_1_0_0_n_n none a b (ix2 r c)).trans ?_
  rw [← Equiv.sum_comp (ValueIdx.contrEquiv1 dot_S1024x2048_S64x2048_S1024x64_1_1_0_0_n_n 2048 rfl rfl).symm]
  refine Finset.sum_congr rfl fun k _ => ?_
  have hk := ValueIdx.contrEquiv1_symm_val dot_S1024x2048_S64x2048_S1024x64_1_1_0_0_n_n 2048 rfl rfl k
  have el : dot_S1024x2048_S64x2048_S1024x64_1_1_0_0_n_n.lhsIdx (ix2 r c) ((ValueIdx.contrEquiv1 dot_S1024x2048_S64x2048_S1024x64_1_1_0_0_n_n 2048 rfl rfl).symm k) = ix2 r k := funext fun x => Fin.ext (by
    match x with
    | ⟨0, _⟩ => exact lhs_proj_0 _ _
    | ⟨1, _⟩ => exact (lhs_proj_1 _ _).trans hk)
  have er : dot_S1024x2048_S64x2048_S1024x64_1_1_0_0_n_n.rhsIdx (ix2 r c) ((ValueIdx.contrEquiv1 dot_S1024x2048_S64x2048_S1024x64_1_1_0_0_n_n 2048 rfl rfl).symm k) = ix2 c k := funext fun x => Fin.ext (by
    match x with
    | ⟨0, _⟩ => exact rhs_proj_0 _ _
    | ⟨1, _⟩ => exact (rhs_proj_1 _ _).trans hk)
  rw [el, er]

/-- The second contraction into the zero matrix, at the entry (r, c): row r of the left operand against row c of the right, summed over the 64 positions. -/
theorem logit_apply (a : FVec Ideal S1024x64 .bf16) (b : FVec Ideal S4096x64 .bf16) (r : Fin 1024) (c : Fin 4096) :
    matmul dot_S1024x64_S4096x64_S1024x4096_1_1_0_0_n_n none a b (constant S1024x4096 .f32 0x00000000#32) (ix2 r c)
      = ∑ k : Fin 64, a (ix2 r k) * b (ix2 c k) := by
  refine (Ideal.matmul_constant_zero_apply dot_S1024x64_S4096x64_S1024x4096_1_1_0_0_n_n none a b (ix2 r c)).trans ?_
  rw [← Equiv.sum_comp (ValueIdx.contrEquiv1 dot_S1024x64_S4096x64_S1024x4096_1_1_0_0_n_n 64 rfl rfl).symm]
  refine Finset.sum_congr rfl fun k _ => ?_
  have hk := ValueIdx.contrEquiv1_symm_val dot_S1024x64_S4096x64_S1024x4096_1_1_0_0_n_n 64 rfl rfl k
  have el : dot_S1024x64_S4096x64_S1024x4096_1_1_0_0_n_n.lhsIdx (ix2 r c) ((ValueIdx.contrEquiv1 dot_S1024x64_S4096x64_S1024x4096_1_1_0_0_n_n 64 rfl rfl).symm k) = ix2 r k := funext fun x => Fin.ext (by
    match x with
    | ⟨0, _⟩ => exact lhs_logit_0 _ _
    | ⟨1, _⟩ => exact (lhs_logit_1 _ _).trans hk)
  have er : dot_S1024x64_S4096x64_S1024x4096_1_1_0_0_n_n.rhsIdx (ix2 r c) ((ValueIdx.contrEquiv1 dot_S1024x64_S4096x64_S1024x4096_1_1_0_0_n_n 64 rfl rfl).symm k) = ix2 c k := funext fun x => Fin.ext (by
    match x with
    | ⟨0, _⟩ => exact rhs_logit_0 _ _
    | ⟨1, _⟩ => exact (rhs_logit_1 _ _).trans hk)
  rw [el, er]

/-! ## The entry -/

theorem logit_entry (v0 : Vec Ideal S1024x2048 .f32) (v3 : Vec Ideal S64x2048 .f32) (v6 : Vec Ideal S1x64 .f32)
    (v11 : Vec Ideal S4096x64 .bf16) (p : Fin 1024) (n : Fin 4096) :
    k1_pay1 (F := Ideal) v0 v3 v6 v11 (ix2 p n)
      = ∑ d : Fin 64, ((∑ k : Fin 2048, (v0 (ix2 p k) : EReal) * v3 (ix2 d k)) + v6 (ix2 (0 : Fin 1) d)) * v11 (ix2 n d) := by
  unfold k1_pay1
  rw [logit_apply]
  refine Finset.sum_congr rfl fun d _ => ?_
  rw [shapeCast_self, shapeCast_self, shapeCast_self, truncf_apply, addf_apply, proj_apply, broadcastTo_1b_ab_apply]
  rfl

end Cert.KernelIdeal.RouterEntry

end
-- ==== Proof.RegionRouter.lean ====
/-
  What the second kernel region leaves in its output array, as one function of the four arrays it reads.

  The region walks 16 row blocks of 1024 tokens. At block t it reads rows [1024·t, 1024·t + 1024) of the token matrix, the
  whole weight matrix, the bias row and the whole table of unit rows, and writes rows [1024·t, 1024·t + 1024) of the
  result: entry (p, n) of the block is Σ_d (Σ_k X[1024·t + p, k] · W[d, k] + B[0, d]) · E[n, d]. So what block t writes back
  is block t of ONE whole-array function (`routed`), and the 16 blocks tile the result's rows: the array ends holding it.
-/
import proofs.«128802_g64476049048132_cont_9to1c4b_522_7_alg».proof.Proof.Gen.KernelIdeal.Frame
import proofs.«128802_g64476049048132_cont_9to1c4b_522_7_alg».proof.Proof.RouterEntry
import Idealize.ShloMosaic.Lib.Pipeline.Value
import Idealize.ShloMosaic.Lib.ValueIdx

set_option maxRecDepth 16384

noncomputable section

namespace Cert.KernelIdeal.RegionRouter

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row r, column n of the result: the projected row r against unit row n. -/
def routed (X : S16384x2048.Idx → EReal) (W : S64x2048.Idx → EReal) (B : S1x64.Idx → EReal) (E : S4096x64.Idx → EReal) :
    S16384x4096.Idx → EReal :=
  fun j => ∑ d : Fin 64, ((∑ k : Fin 2048, X (ix2 (⟨(j 0).val, (j 0).isLt⟩ : Fin 16384) k) * W (ix2 d k)) + B (ix2 (0 : Fin 1) d))
    * E (ix2 (⟨(j 1).val, (j 1).isLt⟩ : Fin 4096) d)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 16 points: the token window and the result window sit at row block t, column block 0;
    the other three windows at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block is some point's. -/
theorem block_onto : ∀ q : Fin 16, ∃ t : Fin cfg1.N, win1_4.index t = ![q.val, 0] :=
  (by decide +kernel : ∀ q : Fin 16, ∃ t : Fin grid1.N, win1_4.index t = ![q.val, 0])

/-- What point t writes back is block t of `routed` of the arrays as the region finds them. -/
theorem flushed_eq (c : Dev nD) (t : Fin cfg1.N) :
    (dat1 V c).flushed 4 t = ((cfg1.win 4).blk t).view.read (Elt Ideal)
      (routed (V c main_call0_v0) (V c main_arg1) (V c main_call0_v2) (V c main_call0_v3)) := by
  show (cfg1.win 4).cut (grid1.coords t) ((dat1 V c).after 4 t) = _
  rw [after1_4]
  unfold out1_4
  rw [View.canon_unit_zero origin]
  simp only [View.ld_unit_zero (S := S1024x2048) origin, View.ld_unit_zero (S := S64x2048) origin,
    View.ld_unit_zero (S := S1x64) origin, View.ld_unit_zero (S := S4096x64) origin]
  obtain ⟨e00, e01, e10, e11, e20, e21, e30, e31, e40, e41⟩ := block_indices t
  funext j
  obtain ⟨p, q, rfl⟩ : ∃ (p : Fin 1024) (q : Fin 4096), j = ix2 p q := ⟨j 0, j 1, eq_ix2 j⟩
  show k1_pay1 (F := Ideal) (iblk1 V c 0 t) (iblk1 V c 1 t) (iblk1 V c 2 t) (iblk1 V c 3 t) (ix2 p q)
    = routed (V c main_call0_v0) (V c main_arg1) (V c main_call0_v2) (V c main_call0_v3) (((cfg1.win 4).blk t).view.emb (ix2 p q))
  refine (RouterEntry.logit_entry (iblk1 V c 0 t) (iblk1 V c 1 t) (iblk1 V c 2 t) (iblk1 V c 3 t) p q).trans ?_
  unfold routed
  refine Finset.sum_congr rfl fun d _ => ?_
  refine congrArg₂ (· * ·) (congrArg₂ (· + ·) (Finset.sum_congr rfl fun k _ => congrArg₂ (· * ·) ?_ ?_) ?_) ?_
  · -- a token row of the block is row 1024·t + p of the token matrix
    show V c main_call0_v0 (((cfg1.win 0).blk t).view.emb (ix2 p k)) = _
    refine congrArg (V c main_call0_v0) (funext fun a => Fin.ext ?_)
    match a with
    | ⟨0, _⟩ => show win1_0.index t (0 : Fin 2) * 1024 + 1 * p.val = win1_4.index t (0 : Fin 2) * 1024 + 1 * p.val; omega
    | ⟨1, _⟩ => show win1_0.index t (1 : Fin 2) * 2048 + 1 * k.val = k.val; omega
  · -- the weight block is the whole weight matrix
    show V c main_arg1 (((cfg1.win 1).blk t).view.emb (ix2 d k)) = _
    refine congrArg (V c main_arg1) (funext fun a => Fin.ext ?_)
    match a with
    | ⟨0, _⟩ => show win1_1.index t (0 : Fin 2) * 64 + 1 * d.val = d.val; omega
    | ⟨1, _⟩ => show win1_1.index t (1 : Fin 2) * 2048 + 1 * k.val = k.val; omega
  · -- the bias block is the whole bias row
    show V c main_call0_v2 (((cfg1.win 2).blk t).view.emb (ix2 (0 : Fin 1) d)) = _
    refine congrArg (V c main_call0_v2) (funext fun a => Fin.ext ?_)
    match a with
    | ⟨0, _⟩ => show win1_2.index t (0 : Fin 2) * 1 + 1 * 0 = 0; omega
    | ⟨1, _⟩ => show win1_2.index t (1 : Fin 2) * 64 + 1 * d.val = d.val; omega
  · -- the table block is the whole table of unit rows
    show V c main_call0_v3 (((cfg1.win 3).blk t).view.emb (ix2 q d)) = _
    refine congrArg (V c main_call0_v3) (funext fun a => Fin.ext ?_)
    match a with
    | ⟨0, _⟩ => show win1_3.index t (0 : Fin 2) * 4096 + 1 * q.val = win1_4.index t (1 : Fin 2) * 4096 + 1 * q.val; omega
    | ⟨1, _⟩ => show win1_3.index t (1 : Fin 2) * 64 + 1 * d.val = d.val; omega

/-- An index of the result is in point t's block iff each coordinate is in the block's range on its axis. -/
theorem mem_block (t : Fin cfg1.N) (i : S16384x4096.Idx) :
    i ∈ ((cfg1.win 4).blk t).view.set ↔ ∀ a : Fin 2, win1_4.index t a * S1024x4096.size a ≤ (i a).val
      ∧ (i a).val < win1_4.index t a * S1024x4096.size a + S1024x4096.size a := by
  show i ∈ ((View.whole main_call0_v4).slice (win1_4.rect t)).set ↔ _
  rw [View.set_slice_whole, Rect.mem_set_unit]
  exact Iff.rfl

/-- The 16 row blocks tile the result: row r lies in block r / 1024. -/
theorem covered (i : S16384x4096.Idx) :
    ∃ t : Fin cfg1.N, (cfg1.win 4).flush t = true ∧ i ∈ ((cfg1.win 4).blk t).view.set := by
  have hi0 : (i 0).val < 16384 := (i 0).isLt
  have hi1 : (i 1).val < 4096 := (i 1).isLt
  obtain ⟨t, ht⟩ := block_onto ⟨(i 0).val / 1024, by omega⟩
  have q0 : win1_4.index t (0 : Fin 2) = (i 0).val / 1024 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 4096 ≤ (i 1).val ∧ (i 1).val < win1_4.index t (1 : Fin 2) * 4096 + 4096; omega

/-- The result array after the region: `routed` of the four arrays as the region finds them. -/
theorem region_value (c : Dev nD) :
    (dat1 V c).arrAt 4 cfg1.N = routed (V c main_call0_v0) (V c main_arg1) (V c main_call0_v2) (V c main_call0_v3) :=
  (dat1 V c).arrAt_eq_of_cover 4 _ (fun t _ => flushed_eq V c t) covered

end Cert.KernelIdeal.RegionRouter

end
-- ==== Proof.KernelLogits.lean ====
/-
  The kernel program's result buffer, after the run, holds the router's logits of the four launch arrays.

  The program is: three host re-addressings (the tokens flattened to 16384 rows, the first 4096 rows of the table sliced
  out, the bias made a 1 × 64 row), the region that scales the sliced table's rows to unit length, the region that
  projects the tokens and takes inner products with the unit rows, and one host reshape of the 16384 × 4096 result back
  to 4 × 4096 × 4096. Reading the last buffer back through that chain: the reshape pairs (b, s, n) with row 4096·b + s and
  column n; the second region's array is `routed` of its four input arrays; of those, the token matrix is the flattened
  `x` (row 4096·b + s, column k is x[b, s, k]), the weights are `W` untouched, the bias row's entry (0, d) is bias[d], and the
  table is the first region's array, `unitRows` of the sliced table. Put together this is `RouterSpec.logits`.
-/
import proofs.«128802_g64476049048132_cont_9to1c4b_522_7_alg».proof.Proof.Gen.KernelIdeal.Frame
import proofs.«128802_g64476049048132_cont_9to1c4b_522_7_alg».proof.Proof.RegionNormalize
import proofs.«128802_g64476049048132_cont_9to1c4b_522_7_alg».proof.Proof.RegionRouter
import Idealize.ShloMosaic.Lib.Pipeline.Value
import Idealize.ShloMosaic.Lib.ValueIdx
import Idealize.ShloMosaic.Lib.StableHlo.Run

set_option maxRecDepth 16384

noncomputable section

namespace Cert.KernelIdeal.KernelLogits

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host re-addressings before the regions -/

/-- The second region finds the tokens flattened. -/
theorem tokens_entry (c : Dev nD) :
    (V2 m ρ c main_call0_v0 : S16384x2048.Idx → EReal)
      = shapeCast S16384x2048 (m ((c : Thread nD τ).loc main_arg0)) shapeCasts_S4x4096x2048_S16384x2048 := by
  refine (W2_of_ne m ρ c main_call0_v0 (by decide)).trans ?_
  show StableHlo.after hostOps0 (W0 m ρ c) (Proc.devRef .tc main_call0_v0) = _
  after_results
  rfl

/-- It finds the weights as launched. -/
theorem weights_entry (c : Dev nD) :
    (V2 m ρ c main_arg1 : S64x2048.Idx → EReal) = m ((c : Thread nD τ).loc main_arg1) := by
  refine (W2_of_ne m ρ c main_arg1 (by decide)).trans ?_
  show StableHlo.after hostOps0 (W0 m ρ c) (Proc.devRef .tc main_arg1) = _
  after_results

/-- It finds the bias as a 1 × 64 row. -/
theorem bias_entry (c : Dev nD) :
    (V2 m ρ c main_call0_v2 : S1x64.Idx → EReal)
      = shapeCast S1x64 (m ((c : Thread nD τ).loc main_arg2)) shapeCasts_S64_S1x64 := by
  refine (W2_of_ne m ρ c main_call0_v2 (by decide)).trans ?_
  show StableHlo.after hostOps0 (W0 m ρ c) (Proc.devRef .tc main_call0_v2) = _
  after_results
  rfl

/-- The first region finds the table's first 4096 rows. -/
theorem table_entry (c : Dev nD) :
    (V1 m ρ c main_call0_v1 : S4096x64.Idx → EReal)
      = extractStridedSlice S4096x64 ![0, 0] (m ((c : Thread nD τ).loc main_arg3)) slices_S12288x64_S4096x64_0_0 := by
  show StableHlo.after hostOps0 (W0 m ρ c) (Proc.devRef .tc main_call0_v1) = _
  after_results
  rfl

/-- The second region finds, as its table, what the first region left: the unit rows of the sliced table. -/
theorem unit_table_entry (c : Dev nD) :
    (V2 m ρ c main_call0_v3 : S4096x64.Idx → EReal) = RegionNormalize.unitRows (V1 m ρ c main_call0_v1) :=
  (W2_arr m ρ c 1).trans (RegionNormalize.region_value (V1 m ρ) c)

/-- The result buffer is the second region's array reshaped. -/
theorem result_entry (c : Dev nD) :
    (W4 m ρ c (Proc.devRef .tc main_v0) : S4x4096x4096.Idx → EReal)
      = shapeCast S4x4096x4096 (RegionRouter.routed (V2 m ρ c main_call0_v0) (V2 m ρ c main_arg1) (V2 m ρ c main_call0_v2) (V2 m ρ c main_call0_v3))
          shapeCasts_S16384x4096_S4x4096x4096 := by
  have h : (W3 m ρ c (Proc.devRef .tc main_call0_v4) : S16384x4096.Idx → EReal)
      = RegionRouter.routed (V2 m ρ c main_call0_v0) (V2 m ρ c main_arg1) (V2 m ρ c main_call0_v2) (V2 m ρ c main_call0_v3) :=
    (W3_arr m ρ c 4).trans (RegionRouter.region_value (V2 m ρ) c)
  rw [← h]
  show StableHlo.after hostOps2 (W3 m ρ c) (Proc.devRef .tc main_v0) = _
  after_results
  rfl

/-! ## Put together -/

/-- The sliced table is the specification's `topRows`. -/
theorem slice_eq (T : S12288x64.Idx → EReal) :
    extractStridedSlice S4096x64 ![0, 0] T slices_S12288x64_S4096x64_0_0 = Cert.RouterSpec.topRows T :=
  funext fun j => extractStridedSlice_apply ![0, 0] T slices_S12288x64_S4096x64_0_0 j _ (fun a => match a with
    | ⟨0, _⟩ => by show (j 0).val = 0 + (j 0).val; omega
    | ⟨1, _⟩ => by show (j 1).val = 0 + (j 1).val; omega)

/-- The result buffer after the run is the router's logits of the launch arrays. -/
theorem kernel_logits (c : Dev nD) :
    (W4 m ρ c (Proc.devRef .tc main_v0) : S4x4096x4096.Idx → EReal)
      = Cert.RouterSpec.logits (m ((c : Thread nD τ).loc main_arg0)) (m ((c : Thread nD τ).loc main_arg1))
          (m ((c : Thread nD τ).loc main_arg2)) (m ((c : Thread nD τ).loc main_arg3)) := by
  rw [result_entry, tokens_entry, weights_entry, bias_entry, unit_table_entry, table_entry, slice_eq]
  funext i
  have hi0 : (i 0).val < 4 := (i 0).isLt
  have hi1 : (i 1).val < 4096 := (i 1).isLt
  have hi2 : (i 2).val < 4096 := (i 2).isLt
  -- the reshape pairs (b, s, n) with row 4096·b + s, column n
  rw [shapeCast_apply _ shapeCasts_S16384x4096_S4x4096x4096 i
    (ix2 (⟨(i 0).val * 4096 + (i 1).val, by omega⟩ : Fin 16384) (⟨(i 2).val, hi2⟩ : Fin 4096))
    (by rw [Shape.rowMajor_val_two, Shape.rowMajor_val_three]; rfl)]
  unfold RegionRouter.routed Cert.RouterSpec.logits Cert.RouterSpec.logit
  refine Finset.sum_congr rfl fun d _ => ?_
  refine congrArg₂ (· * ·) ?_ ?_
  · -- the projected token: row 4096·b + s of the flattened tokens is x[b, s, ·]; entry (0, d) of the bias row is bias[d]
    unfold Cert.RouterSpec.projEntry
    refine congrArg₂ (· + ·) (Finset.sum_congr rfl fun k _ => congrArg₂ (· * ·) ?_ rfl) ?_
    · exact shapeCast_apply _ shapeCasts_S4x4096x2048_S16384x2048 _
        (ix3 (⟨(i 0).val, hi0⟩ : Fin 4) (⟨(i 1).val, hi1⟩ : Fin 4096) k)
        (by rw [Shape.rowMajor_val_three, Shape.rowMajor_val_two]; rfl)
    · exact shapeCast_apply _ shapeCasts_S64_S1x64 _ (ix1 d)
        (by rw [Shape.rowMajor_val_one, Shape.rowMajor_val_two]; show d.val = 0 * 64 + d.val; omega)
  · -- the unit row n of the sliced table
    rfl

end Cert.KernelIdeal.KernelLogits

end
-- ==== Proof.RefLogits.lean ====
/-
  The reference program's result, read one element at a time, is the router's logits.

  The reference computes, for a token (b, s) and a table row n,

      out[b, s, n] = Σ_{d<64} P[b, s, d] · Q[n, d]

  where P[b, s, d] = Σ_{k<2048} x[b, s, k] · W[d, k] + bias[d] is the token projected into the 64-dimensional routing
  space (a contraction over the 2048 model coordinates, then the bias, which is broadcast along b and s), and
  Q[n, d] = E[n, d] / max(√(0 + Σ_{j<64} E[n, j] · E[n, j]), c) is row n of E — the first 4096 rows of the
  12288-row table — divided by its Euclidean length, the length clamped from below by the literal word c.

  Each of these is one stage of the reference read at an index: the two contractions are finite sums over the contracted
  coordinate, the broadcasts and the slice only re-address their operand, and the pointwise stages act on the extended
  reals as + , · , / , max and √. The sum of squares starts from the zero word, which is the real number 0, so it drops
  out. What remains is to see that every composed re-addressing is the index with the expected explicit coordinates;
  each such equation holds coordinate by coordinate. The clamp literal is the same word on both sides and is never
  evaluated.
-/
import proofs.«128802_g64476049048132_cont_9to1c4b_522_7_alg».proof.Proof.RouterSpec
import proofs.«128802_g64476049048132_cont_9to1c4b_522_7_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLogits

open Idealize.ShloMosaic Idealize.ShloMosaic.ValueIdx Cert.ReferenceIdeal Cert.ReferenceIdeal.Gen

/-- The projected token: the first contraction plus the broadcast bias, at explicit coordinates. -/
theorem proj_at (x0 : (⟨S4x4096x2048, .f32⟩ : BufTy).Contents (Elt Ideal)) (x1 : (⟨S64x2048, .f32⟩ : BufTy).Contents (Elt Ideal))
    (x2 : (⟨S64, .f32⟩ : BufTy).Contents (Elt Ideal)) (b : Fin 4) (s : Fin 4096) (d : Fin 64) :
    Cert.ReferenceIdeal.Read.val_main_v3 (F := Ideal) x0 x1 x2 (ix3 b s d) = Cert.RouterSpec.projEntry x0 x1 x2 b s d := by
  rw [Read.val_main_v3_apply, Read.val_main_v0_apply, Read.val_main_v2_apply, Read.val_main_v1_apply, Ideal.addf_def]
  unfold Cert.RouterSpec.projEntry
  have eb : Read.idx_main_v1 (Read.idx_main_v2 (ix3 b s d)) = ix1 d :=
    funext fun a => Fin.ext (by match a with | ⟨0, _⟩ => rfl)
  rw [eb]
  refine congrArg (· + x2 (ix1 d)) (Finset.sum_congr rfl fun k _ => ?_)
  have el : Read.lidx_main_v0 (ix3 b s d) k = ix3 b s k :=
    funext fun a => Fin.ext (by match a with | ⟨0, _⟩ => rfl | ⟨1, _⟩ => rfl | ⟨2, _⟩ => rfl)
  have er : Read.ridx_main_v0 (ix3 b s d) k = ix2 d k :=
    funext fun a => Fin.ext (by match a with | ⟨0, _⟩ => rfl | ⟨1, _⟩ => rfl)
  rw [el, er]

/-- A unit row's entry: the sliced table entry over its clamped length, at explicit coordinates. -/
theorem unit_at (x3 : (⟨S12288x64, .f32⟩ : BufTy).Contents (Elt Ideal)) (n : Fin 4096) (d : Fin 64) :
    Cert.ReferenceIdeal.Read.val_main_v9 (F := Ideal) x3 (ix2 n d) = Cert.RouterSpec.unitEntry (Cert.RouterSpec.topRows x3) n d := by
  rw [Read.val_main_v9_apply, Read.val_main_v4_apply, Read.val_main_v8_apply, Read.val_main_v7_apply, Read.val_main_v5_apply,
    Read.val_main_v6_apply, Read.val_main_cst_apply, Read.val_main_call0_v2_apply, Read.val_main_call0_v1_apply,
    Read.val_main_call0_cst_apply]
  simp only [Read.val_main_call0_v0_apply, Read.val_main_v4_apply, Ideal.hostDivf_def, Ideal.maximumf_def,
    Ideal.hostUnary_sqrt_def, Ideal.mulf_def, Ideal.ofBits_def, Ideal.ofBits_zero_f32, zero_add]
  unfold Cert.RouterSpec.unitEntry Cert.RouterSpec.rowSq Cert.RouterSpec.normFloor Cert.RouterSpec.topRows
  have e4 : Read.idx_main_v4 (ix2 n d) = ix2 (⟨n.val, by have h : n.val < 4096 := n.isLt; omega⟩ : Fin 12288) (⟨d.val, d.isLt⟩ : Fin 64) :=
    funext fun a => Fin.ext (by match a with | ⟨0, _⟩ => rfl | ⟨1, _⟩ => rfl)
  have es : ∀ k : Fin 64, Read.idx_main_v4 (Read.idx_main_call0_v1 (Read.idx_main_call0_v2 (Read.idx_main_v8 (ix2 n d))) k)
      = ix2 (⟨n.val, by have h : n.val < 4096 := n.isLt; omega⟩ : Fin 12288) (⟨k.val, k.isLt⟩ : Fin 64) := fun k =>
    funext fun a => Fin.ext (by match a with | ⟨0, _⟩ => rfl | ⟨1, _⟩ => rfl)
  simp only [e4, es]

theorem reference_logits (x0 : (⟨S4x4096x2048, .f32⟩ : BufTy).Contents (Elt Ideal)) (x1 : (⟨S64x2048, .f32⟩ : BufTy).Contents (Elt Ideal))
    (x2 : (⟨S64, .f32⟩ : BufTy).Contents (Elt Ideal)) (x3 : (⟨S12288x64, .f32⟩ : BufTy).Contents (Elt Ideal)) :
    Cert.ReferenceIdeal.Read.val_main_v10 (F := Ideal) x0 x1 x2 x3 = Cert.RouterSpec.logits x0 x1 x2 x3 := by
  funext i
  rw [Read.val_main_v10_apply]
  unfold Cert.RouterSpec.logits Cert.RouterSpec.logit
  refine Finset.sum_congr rfl fun k _ => ?_
  have el : Read.lidx_main_v10 i k = ix3 (⟨(i 0).val, (i 0).isLt⟩ : Fin 4) (⟨(i 1).val, (i 1).isLt⟩ : Fin 4096) k :=
    funext fun a => Fin.ext (by match a with | ⟨0, _⟩ => rfl | ⟨1, _⟩ => rfl | ⟨2, _⟩ => rfl)
  have er : Read.ridx_main_v10 i k = ix2 (⟨(i 2).val, (i 2).isLt⟩ : Fin 4096) k :=
    funext fun a => Fin.ext (by match a with | ⟨0, _⟩ => rfl | ⟨1, _⟩ => rfl)
  rw [el, er, proj_at, unit_at]

end Cert.ReferenceIdeal.RefLogits

end
-- ==== Proof.lean ====
/-
  The router kernel against its reference: the five claims.

  Both programs compute, for a token (b, s) and a feature row n,

      logit[b, s, n] = Σ_{d<64} ( Σ_{k<2048} x[b,s,k] · W[d,k] + bias[d] ) · ( E[n,d] / max(√(Σ_{j<64} E[n,j]²), c) ),

  E the first 4096 rows of the embedding table, c one constant, the same on both sides (`RouterSpec.logits`).
  The kernel program does it in two regions — one scales the table's rows to unit length, one walks 16 blocks of 1024
  tokens, projecting each block and taking its inner products with the unit rows — between host re-addressings (a flatten,
  a slice, a reshape); the reference does it with two contractions over the whole arrays. Over the extended reals a change of
  number format is the identity and a product accumulated into zero is the bare sum, so the two are the same function term
  for term: no law of arithmetic beyond reading each operation at an index is used, and the inputs' finiteness is never opened.

  The three frames: the two kernel programs' are the generated frame certificates; the reference's is its generated run with the
  result dropped. The idealization rewrote nothing, so its claim is trivial. The value claim puts the kernel program's run
  with its result buffer named (`ValueRun.run_value`, then `KernelLogits.kernel_logits`) beside the reference's run read one
  operation at a time (`RefLogits.reference_logits`), from memories that agree on the four arguments.
-/
import proofs.«128802_g64476049048132_cont_9to1c4b_522_7_alg».proof.Defs
import proofs.«128802_g64476049048132_cont_9to1c4b_522_7_alg».proof.Proof.Gen.Kernel
import proofs.«128802_g64476049048132_cont_9to1c4b_522_7_alg».proof.Proof.Gen.Kernel.Frame
import proofs.«128802_g64476049048132_cont_9to1c4b_522_7_alg».proof.Proof.Gen.KernelIdeal
import proofs.«128802_g64476049048132_cont_9to1c4b_522_7_alg».proof.Proof.Gen.KernelIdeal.Frame
import proofs.«128802_g64476049048132_cont_9to1c4b_522_7_alg».proof.Proof.Gen.ReferenceIdeal
import proofs.«128802_g64476049048132_cont_9to1c4b_522_7_alg».proof.Proof.Gen.Pre_finite_inputs
import proofs.«128802_g64476049048132_cont_9to1c4b_522_7_alg».proof.Proof.Gen.ReferenceIdeal.Run
import proofs.«128802_g64476049048132_cont_9to1c4b_522_7_alg».proof.Proof.Gen.ReferenceIdeal.Read
import proofs.«128802_g64476049048132_cont_9to1c4b_522_7_alg».proof.Proof.KernelRun
import proofs.«128802_g64476049048132_cont_9to1c4b_522_7_alg».proof.Proof.KernelLogits
import proofs.«128802_g64476049048132_cont_9to1c4b_522_7_alg».proof.Proof.RefLogits
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run, its result dropped
    exact fun m ρ _ => (θ_run Cert.ReferenceIdeal.defs _ _).mono (fun _ h c => (h c).2)
      (Cert.ReferenceIdeal.Value.run (F := Ideal) m ρ)
  · -- both runs end at the logits of the (agreeing) arguments
    intro m ρ m' ρ' _ hagree
    refine ⟨fun c => Cert.RouterSpec.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
    · exact (θ_run Cert.KernelIdeal.defs _ _).mono
        (fun r h c => ⟨(h c).1.trans (Cert.KernelIdeal.KernelLogits.kernel_logits m ρ c), (h c).2⟩)
        (Cert.KernelIdeal.ValueRun.run_value (F := Ideal) m ρ)
    · refine (θ_run Cert.ReferenceIdeal.defs _ _).mono (fun r h c => ⟨(h c).1.trans ?_, (h c).2⟩)
        (Cert.ReferenceIdeal.Value.run (F := Ideal) m' ρ')
      rw [(hagree c).1, (hagree c).2.1, (hagree c).2.2.1, (hagree c).2.2.2]
      exact (Cert.ReferenceIdeal.Read.val_main_v10_eq _ _ _ _).trans (Cert.ReferenceIdeal.RefLogits.reference_logits _ _ _ _)⟩

end Cert.Proof

end
